-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4000000x16 : Shape := ⟨2, ![4000000, 16]⟩
abbrev S4000000 : Shape := ⟨1, ![4000000]⟩
abbrev S_ : Shape := ⟨0, ![]⟩

class Facts : Prop where
  bcast_S_S4000000x16 : S_.BroadcastsInDim S4000000x16 (![] : Fin 0 → Fin S4000000x16.rank)
  reducesTo_S4000000x16_S_d0_1 : S4000000x16.ReducesTo [0, 1] S_
  h_S_ : 0 < S_.numel

variable [Facts]

def fn {F : FTy → Type} [FloatOps F] (main_arg0 : FVec F S4000000x16 .f32) (main_arg1 : IVec S4000000 32) : IVec S_ 1 :=
  let main_v0 : FVec F S4000000x16 .f32 := Host.absf main_arg0
  let main_cst : FVec F S_ .f32 := constant S_ .f32 0x7F800000#32
  let main_v1 : FVec F S4000000x16 .f32 := broadcastInDim S4000000x16 ![] bcast_S_S4000000x16 main_cst
  let main_v2 : IVec S4000000x16 1 := cmpf .olt main_v0 main_v1
  let main_c : IVec S_ 1 := constantI S_ 1 1#1
  let main_v3 : IVec S_ 1 := (fun x v => Host.reduce IntOp.andi x v reducesTo_S4000000x16_S_d0_1 h_S_) main_v2 main_c
  main_v3
-- ==== Kernel.lean ====
abbrev S4000000x16 : Shape := ⟨2, ![4000000, 16]⟩
abbrev S4000000 : Shape := ⟨1, ![4000000]⟩
abbrev S16384x16 : Shape := ⟨2, ![16384, 16]⟩
abbrev S16384 : Shape := ⟨1, ![16384]⟩
abbrev S16384x1 : Shape := ⟨2, ![16384, 1]⟩

abbrev nBuf : Space → Nat
  | .hbm => 3
  | .vmem => 6
  | .smem => 0
  | _ => 0

abbrev bufTy : (tb : Table) → Fin (tcTables nBuf tb) → BufTy
  | .hbm, ⟨0, _⟩ => ⟨S4000000x16, .f32⟩
  | .hbm, ⟨1, _⟩ => ⟨S4000000, .i32⟩
  | .hbm, ⟨2, _⟩ => ⟨S4000000, .f32⟩
  | .local _ .vmem, ⟨0, _⟩ => ⟨S16384x16, .f32⟩
  | .local _ .vmem, ⟨1, _⟩ => ⟨S16384x16, .f32⟩
  | .local _ .vmem, ⟨2, _⟩ => ⟨S16384, .i32⟩
  | .local _ .vmem, ⟨3, _⟩ => ⟨S16384, .i32⟩
  | .local _ .vmem, ⟨4, _⟩ => ⟨S16384, .f32⟩
  | .local _ .vmem, ⟨5, _⟩ => ⟨S16384, .f32⟩
  | _, _ => ⟨S4000000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![245], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  ![arg0.toNat]

def cc0_transform_2 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S16384x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16384 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S16384x16_S16384x16_0_0 : ∀ a, (![0, 0] : Fin 2 → Nat) a + S16384x16.size a ≤ S16384x16.size a
  h_S16384x16 : 0 < S16384x16.numel
  inb_S16384_S16384_0 : ∀ a, (![0] : Fin 1 → Nat) a + S16384.size a ≤ S16384.size a
  h_S16384 : 0 < S16384.numel
  slices_S16384x16_o0_0_S16384x1 : S16384x16.Slices ![0, 0] S16384x1
  shapeCasts_S16384x1_S16384 : S16384x1.ShapeCasts S16384
  slices_S16384x16_o0_1_S16384x1 : S16384x16.Slices ![0, 1] S16384x1
  slices_S16384x16_o0_2_S16384x1 : S16384x16.Slices ![0, 2] S16384x1
  slices_S16384x16_o0_3_S16384x1 : S16384x16.Slices ![0, 3] S16384x1
  slices_S16384x16_o0_4_S16384x1 : S16384x16.Slices ![0, 4] S16384x1
  slices_S16384x16_o0_5_S16384x1 : S16384x16.Slices ![0, 5] S16384x1
  slices_S16384x16_o0_6_S16384x1 : S16384x16.Slices ![0, 6] S16384x1
  slices_S16384x16_o0_7_S16384x1 : S16384x16.Slices ![0, 7] S16384x1
  slices_S16384x16_o0_8_S16384x1 : S16384x16.Slices ![0, 8] S16384x1
  slices_S16384x16_o0_9_S16384x1 : S16384x16.Slices ![0, 9] S16384x1
  slices_S16384x16_o0_10_S16384x1 : S16384x16.Slices ![0, 10] S16384x1
  slices_S16384x16_o0_11_S16384x1 : S16384x16.Slices ![0, 11] S16384x1
  slices_S16384x16_o0_12_S16384x1 : S16384x16.Slices ![0, 12] S16384x1
  slices_S16384x16_o0_13_S16384x1 : S16384x16.Slices ![0, 13] S16384x1
  slices_S16384x16_o0_14_S16384x1 : S16384x16.Slices ![0, 14] S16384x1
  slices_S16384x16_o0_15_S16384x1 : S16384x16.Slices ![0, 15] S16384x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S16384x16.size a < S4000000x16.size a
  hwx0_0 : ∀ i : grid0.Coords, EltTy.bits .f32 = 32 ∨ (Rect.unit (s := S4000000x16) (fun a => cc0_transform_0 i a * S16384x16.size a) (fun a => (Pipeline.Clip.of (cc0_transform_0 i a) (S16384x16.size a) (S4000000x16.size a)).extent (S16384x16.size a)) fun a => Pipeline.Clip.inb (Pipeline.Clip.ok_of (hstart0_0 i a))).WholeWords (EltTy.packing .f32)
  hwxs0_0 : ∀ i : grid0.Coords, EltTy.bits .f32 = 32 ∨ (Rect.unit (s := S16384x16) (fun _ => 0) (fun a => (Pipeline.Clip.of (cc0_transform_0 i a) (S16384x16.size a) (S4000000x16.size a)).extent (S16384x16.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S16384.size a < S4000000.size a
  hwx0_1 : ∀ i : grid0.Coords, EltTy.bits .i32 = 32 ∨ (Rect.unit (s := S4000000) (fun a => cc0_transform_1 i a * S16384.size a) (fun a => (Pipeline.Clip.of (cc0_transform_1 i a) (S16384.size a) (S4000000.size a)).extent (S16384.size a)) fun a => Pipeline.Clip.inb (Pipeline.Clip.ok_of (hstart0_1 i a))).WholeWords (EltTy.packing .i32)
  hwxs0_1 : ∀ i : grid0.Coords, EltTy.bits .i32 = 32 ∨ (Rect.unit (s := S16384) (fun _ => 0) (fun a => (Pipeline.Clip.of (cc0_transform_1 i a) (S16384.size a) (S4000000.size a)).extent (S16384.size a)) fun a => (Nat.zero_add _).trans_le (Pipeline.Clip.extent_le (Pipeline.Clip.ok_of (hstart0_1 i a)))).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S16384.size a < S4000000.size a
  hwx0_2 : ∀ i : grid0.Coords, EltTy.bits .f32 = 32 ∨ (Rect.unit (s := S4000000) (fun a => cc0_transform_2 i a * S16384.size a) (fun a => (Pipeline.Clip.of (cc0_transform_2 i a) (S16384.size a) (S4000000.size a)).extent (S16384.size a)) fun a => Pipeline.Clip.inb (Pipeline.Clip.ok_of (hstart0_2 i a))).WholeWords (EltTy.packing .f32)
  hwxs0_2 : ∀ i : grid0.Coords, EltTy.bits .f32 = 32 ∨ (Rect.unit (s := S16384) (fun _ => 0) (fun a => (Pipeline.Clip.of (cc0_transform_2 i a) (S16384.size a) (S4000000.size a)).extent (S16384.size a)) fun a => (Nat.zero_add _).trans_le (Pipeline.Clip.extent_le (Pipeline.Clip.ok_of (hstart0_2 i a)))).WholeWords (EltTy.packing .f32)

variable [Facts₀]

abbrev win0_0 : Pipeline.Window sig grid0 :=
  Pipeline.Window.ofSpecClip (Memref.whole main_arg0) S16384x16.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_arg1) S16384.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v0) S16384.size cc0_transform_2 reads0_2 true false 2 stage0_2 sem0_2
    hrank0 hreads0_2 hstart0_2 nbuf0_2 (Memref.isWhole_whole _) hwx0_2 hwxs0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4000000x16 : Shape := ⟨2, ![4000000, 16]⟩
abbrev S4000000 : Shape := ⟨1, ![4000000]⟩
abbrev S4000000x8x2 : Shape := ⟨3, ![4000000, 8, 2]⟩
abbrev S4000000x1x2 : Shape := ⟨3, ![4000000, 1, 2]⟩
abbrev S4000000x6x2 : Shape := ⟨3, ![4000000, 6, 2]⟩
abbrev S4000000x1x1 : Shape := ⟨3, ![4000000, 1, 1]⟩
abbrev S4000000x1 : Shape := ⟨2, ![4000000, 1]⟩
abbrev S4000000x6x1 : Shape := ⟨3, ![4000000, 6, 1]⟩
abbrev S4000000x6 : Shape := ⟨2, ![4000000, 6]⟩
abbrev S_ : Shape := ⟨0, ![]⟩
abbrev S6 : Shape := ⟨1, ![6]⟩
abbrev S1x6 : Shape := ⟨2, ![1, 6]⟩

abbrev nBuf : Space → Nat
  | .hbm => 50
  | .vmem => 0
  | .smem => 0
  | _ => 0

abbrev bufTy : (tb : Table) → Fin (tcTables nBuf tb) → BufTy
  | .hbm, ⟨0, _⟩ => ⟨S4000000x16, .f32⟩
  | .hbm, ⟨1, _⟩ => ⟨S4000000, .i32⟩
  | .hbm, ⟨2, _⟩ => ⟨S4000000x8x2, .f32⟩
  | .hbm, ⟨3, _⟩ => ⟨S4000000x1x2, .f32⟩
  | .hbm, ⟨4, _⟩ => ⟨S4000000x6x2, .f32⟩
  | .hbm, ⟨5, _⟩ => ⟨S4000000x6x2, .f32⟩
  | .hbm, ⟨6, _⟩ => ⟨S4000000x1x1, .f32⟩
  | .hbm, ⟨7, _⟩ => ⟨S4000000x1, .f32⟩
  | .hbm, ⟨8, _⟩ => ⟨S4000000x6x1, .f32⟩
  | .hbm, ⟨9, _⟩ => ⟨S4000000x6, .f32⟩
  | .hbm, ⟨10, _⟩ => ⟨S4000000x6, .f32⟩
  | .hbm, ⟨11, _⟩ => ⟨S4000000x6, .f32⟩
  | .hbm, ⟨12, _⟩ => ⟨S4000000x6x1, .f32⟩
  | .hbm, ⟨13, _⟩ => ⟨S4000000x6, .f32⟩
  | .hbm, ⟨14, _⟩ => ⟨S4000000x6x1, .f32⟩
  | .hbm, ⟨15, _⟩ => ⟨S4000000x6, .f32⟩
  | .hbm, ⟨16, _⟩ => ⟨S4000000x6, .f32⟩
  | .hbm, ⟨17, _⟩ => ⟨S4000000x6, .f32⟩
  | .hbm, ⟨18, _⟩ => ⟨S4000000x1x1, .f32⟩
  | .hbm, ⟨19, _⟩ => ⟨S4000000x1, .f32⟩
  | .hbm, ⟨20, _⟩ => ⟨S4000000x6x1, .f32⟩
  | .hbm, ⟨21, _⟩ => ⟨S4000000x6, .f32⟩
  | .hbm, ⟨22, _⟩ => ⟨S4000000x6, .f32⟩
  | .hbm, ⟨23, _⟩ => ⟨S4000000x6, .f32⟩
  | .hbm, ⟨24, _⟩ => ⟨S4000000x6x1, .f32⟩
  | .hbm, ⟨25, _⟩ => ⟨S4000000x6, .f32⟩
  | .hbm, ⟨26, _⟩ => ⟨S4000000x6x1, .f32⟩
  | .hbm, ⟨27, _⟩ => ⟨S4000000x6, .f32⟩
  | .hbm, ⟨28, _⟩ => ⟨S4000000x6, .f32⟩
  | .hbm, ⟨29, _⟩ => ⟨S4000000x6, .f32⟩
  | .hbm, ⟨30, _⟩ => ⟨S4000000x6, .f32⟩
  | .hbm, ⟨31, _⟩ => ⟨S4000000x6, .f32⟩
  | .hbm, ⟨32, _⟩ => ⟨S_, .f32⟩
  | .hbm, ⟨33, _⟩ => ⟨S4000000x6, .f32⟩
  | .hbm, ⟨34, _⟩ => ⟨S4000000x6, .f32⟩
  | .hbm, ⟨35, _⟩ => ⟨S6, .i32⟩
  | .hbm, ⟨36, _⟩ => ⟨S1x6, .i32⟩
  | .hbm, ⟨37, _⟩ => ⟨S4000000x1, .i32⟩
  | .hbm, ⟨38, _⟩ => ⟨S_, .i32⟩
  | .hbm, ⟨39, _⟩ => ⟨S4000000x1, .i32⟩
  | .hbm, ⟨40, _⟩ => ⟨S4000000x1, .i32⟩
  | .hbm, ⟨41, _⟩ => ⟨S4000000x6, .i32⟩
  | .hbm, ⟨42, _⟩ => ⟨S4000000x6, .i32⟩
  | .hbm, ⟨43, _⟩ => ⟨S4000000x6, .i1⟩
  | .hbm, ⟨44, _⟩ => ⟨S_, .f32⟩
  | .hbm, ⟨45, _⟩ => ⟨S_, .f32⟩
  | .hbm, ⟨46, _⟩ => ⟨S4000000x6, .f32⟩
  | .hbm, ⟨47, _⟩ => ⟨S4000000x6, .f32⟩
  | .hbm, ⟨48, _⟩ => ⟨S_, .f32⟩
  | .hbm, ⟨49, _⟩ => ⟨S4000000, .f32⟩
  | _, _ => ⟨S4000000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_v26 : Ref sig .tc := ⟨.hbm, 28, rfl⟩
abbrev main_v27 : Ref sig .tc := ⟨.hbm, 29, rfl⟩
abbrev main_v28 : Ref sig .tc := ⟨.hbm, 30, rfl⟩
abbrev main_v29 : Ref sig .tc := ⟨.hbm, 31, rfl⟩
abbrev main_cst : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_c : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_cst_0 : Ref sig .tc := ⟨.hbm, 44, rfl⟩
abbrev main_call0_v0 : Ref sig .tc := ⟨.hbm, 45, rfl⟩
abbrev main_call0_v1 : Ref sig .tc := ⟨.hbm, 46, rfl⟩
abbrev main_v40 : Ref sig .tc := ⟨.hbm, 47, rfl⟩
abbrev main_cst_1 : Ref sig .tc := ⟨.hbm, 48, rfl⟩
abbrev main_v41 : Ref sig .tc := ⟨.hbm, 49, rfl⟩

abbrev nD : Nat := 1
abbrev τ : Topo := Topo.v7x

variable {F : FTy → Type} [FloatOps F]

class Facts₀ : Prop where
  shapeCasts_S4000000x16_S4000000x8x2 : S4000000x16.ShapeCasts S4000000x8x2
  slices_S4000000x8x2_S4000000x1x2_0_0_0 : S4000000x8x2.Slices ![0, 0, 0] S4000000x1x2
  slices_S4000000x8x2_S4000000x6x2_0_1_0 : S4000000x8x2.Slices ![0, 1, 0] S4000000x6x2
  slices_S4000000x8x2_S4000000x6x2_0_2_0 : S4000000x8x2.Slices ![0, 2, 0] S4000000x6x2
  slices_S4000000x1x2_S4000000x1x1_0_0_0 : S4000000x1x2.Slices ![0, 0, 0] S4000000x1x1
  shapeCasts_S4000000x1x1_S4000000x1 : S4000000x1x1.ShapeCasts S4000000x1
  slices_S4000000x6x2_S4000000x6x1_0_0_0 : S4000000x6x2.Slices ![0, 0, 0] S4000000x6x1
  shapeCasts_S4000000x6x1_S4000000x6 : S4000000x6x1.ShapeCasts S4000000x6
  bcast_S4000000x1_S4000000x6_0_1 : S4000000x1.BroadcastsInDim S4000000x6 (![0, 1] : Fin 2 → Fin S4000000x6.rank)
  slices_S4000000x6x2_S4000000x6x1_0_0_1 : S4000000x6x2.Slices ![0, 0, 1] S4000000x6x1
  slices_S4000000x1x2_S4000000x1x1_0_0_1 : S4000000x1x2.Slices ![0, 0, 1] S4000000x1x1
  bcast_S_S4000000x6 : S_.BroadcastsInDim S4000000x6 (![] : Fin 0 → Fin S4000000x6.rank)
  bcast_S6_S1x6_1 : S6.BroadcastsInDim S1x6 (![1] : Fin 1 → Fin S1x6.rank)
  bcast_S4000000_S4000000x1_0 : S4000000.BroadcastsInDim S4000000x1 (![0] : Fin 1 → Fin S4000000x1.rank)
  bcast_S_S4000000x1 : S_.BroadcastsInDim S4000000x1 (![] : Fin 0 → Fin S4000000x1.rank)
  bcast_S1x6_S4000000x6_0_1 : S1x6.BroadcastsInDim S4000000x6 (![0, 1] : Fin 2 → Fin S4000000x6.rank)
  reducesTo_S4000000x6_S4000000_d1 : S4000000x6.ReducesTo [1] S4000000
  h_S_ : 0 < S_.numel

variable [Facts₀]

class Facts : Prop extends Facts₀ where

variable [Facts]
-- ==== Proof.AreaRow.lean ====
/-
  The area of a fan-triangulated polygon, one row at a time.

  A row holds eight planar points `(p 0, p 1), (p 2, p 3), …, (p 14, p 15)` and a count `n`. The fan from the
  first point has the six triangles `(P₀, P_{i+1}, P_{i+2})`, `i = 0 … 5`; triangle `i` has area
  `|(x₁ − x₃)(y₂ − y₃) − (y₁ − y₃)(x₂ − x₃)| · ½` and is counted when `i < n − 2` (a signed comparison of
  words, the subtraction wrapping). The row's result is the sum of the counted areas, accumulated from zero in
  the order of `i`. Everything here is stated for any float instance: nothing is used of the arithmetic but its
  names. Also here: a column of an `[n, 16]` array taken as a `[n, 1]` slice and flattened to `[n]`, read at a row.
-/
import Idealize.ShloMosaic.PureOps
import Idealize.ShloMosaic.Lib.ValueIdx
import Idealize.ShloMosaic.Lib.ValueLayout

noncomputable section

namespace Cert.Area

open Idealize.ShloMosaic Idealize.ShloMosaic.ValueIdx

variable {F : FTy → Type} [FloatOps F]

/-- Half the absolute cross product of `P₁ − P₃` and `P₂ − P₃`: the area of the triangle `P₁ P₂ P₃`. -/
def tri (x1 y1 x2 y2 x3 y3 : F .f32) : F .f32 :=
  FloatOps.mulf
    (FloatOps.absf (FloatOps.subf (FloatOps.mulf (FloatOps.subf x1 x3) (FloatOps.subf y2 y3))
      (FloatOps.mulf (FloatOps.subf y1 y3) (FloatOps.subf x2 x3))))
    (Scalar.ofBits .f32 0x3F000000#32)

/-- Triangle `k` of the fan, with second vertex at columns `(a, b)` and third at `(c, d)`: its area when
    `k < n − 2`, else zero. -/
def term (p : Fin 16 → F .f32) (n k : BitVec 32) (a b c d : Fin 16) : F .f32 :=
  Scalar.select (IntOp.cmpi .sgt (IntOp.subi n 2#32) k) (tri (p 0) (p 1) (p a) (p b) (p c) (p d))
    (Scalar.ofBits .f32 0x00000000#32)

/-- The row's result: zero plus the six terms, added in order. -/
def areaRow (p : Fin 16 → F .f32) (n : BitVec 32) : F .f32 :=
  FloatOps.addf (FloatOps.addf (FloatOps.addf (FloatOps.addf (FloatOps.addf (FloatOps.addf
    (Scalar.ofBits .f32 0x00000000#32)
    (term p n 0#32 2 3 4 5)) (term p n 1#32 4 5 6 7)) (term p n 2#32 6 7 8 9)) (term p n 3#32 8 9 10 11))
    (term p n 4#32 10 11 12 13)) (term p n 5#32 12 13 14 15)

/-- The result depends on the row's sixteen entries and its count only. -/
theorem areaRow_congr {p q : Fin 16 → F .f32} {n n' : BitVec 32} (hp : ∀ k, p k = q k) (hn : n = n') :
    areaRow p n = areaRow q n' := by
  rw [show p = q from funext hp, hn]

/-- The whole result: entry `i` is the fan area of row `i` of the `[4000000, 16]` points array, counted by
    entry `i` of the counts. -/
def areaAll (A0 : (⟨2, ![4000000, 16]⟩ : Shape).Idx → F .f32) (A1 : (⟨1, ![4000000]⟩ : Shape).Idx → BitVec 32) :
    (⟨1, ![4000000]⟩ : Shape).Idx → F .f32 :=
  fun i => areaRow (fun k => A0 (ix2 (i 0) k)) (A1 i)

variable {α : Type}

/-- Column `k` of an `[n, 16]` array, cut out as an `[n, 1]` slice and flattened to `[n]`, reads at row `r`
    the array's entry `(r, k)`: the flattening keeps the row-major position `r · 1 + 0 = r`. -/
theorem column_apply {n : Nat} (k : Nat) (hk : k < 16) (X : (⟨2, ![n, 16]⟩ : Shape).Idx → α)
    (hs : (⟨2, ![n, 16]⟩ : Shape).Slices ![0, k] ⟨2, ![n, 1]⟩)
    (hc : (⟨2, ![n, 1]⟩ : Shape).ShapeCasts ⟨1, ![n]⟩) (r : Fin n) :
    shapeCast ⟨1, ![n]⟩ (extractStridedSlice ⟨2, ![n, 1]⟩ ![0, k] X hs) hc (ix1 r) = X (ix2 r ⟨k, hk⟩) := by
  refine (shapeCast_apply _ hc (ix1 r) (ix2 r (0 : Fin 1)) ?_).trans ?_
  · rw [Shape.rowMajor_val_two, Shape.rowMajor_val_one]
    show r.val * 1 + 0 = r.val
    omega
  · exact slice2_axis1_apply k X hs r (0 : Fin 1) ⟨k, hk⟩ (by show k = k + 0; omega)

end Cert.Area

end
-- ==== Proof.RunBits.lean ====
/-
  The pipelined kernel, run: what its body leaves in the output's staging block, and the frame.

  The grid has 245 points; point `t` stages rows `16384·t …` of the points array (a `[16384, 16]` block), of the
  counts and of the result (each a `[16384]` block). The last block overhangs the arrays (245 · 16384 > 4000000): its
  transfers are cut at the arrays' end, and the rows of a staging block past the cut hold words nothing names.
  The body loads the two input blocks whole, computes one value per row from that row's sixteen entries and its
  count (`areaBlock`; row by row it is `Cert.Area.areaRow`, `areaBlock_apply`), and stores the `[16384]` result whole.
  Because the result at a row reads only that row of the inputs, the part of the result block inside the array is
  the same whatever the unnamed rows hold (`cut_areaBlock`): that is all the obligation of a cut window asks.
-/
import proofs.«159758_j23639499997217_1_alg».proof.Proof.Gen.Kernel.Frame
import proofs.«159758_j23639499997217_1_alg».proof.Proof.Gen.Kernel.Skeleton
import proofs.«159758_j23639499997217_1_alg».proof.Proof.AreaRow
import Idealize.ShloMosaic.Lib.Pipeline.Value
import Idealize.ShloMosaic.Lib.Tactic

set_option maxRecDepth 16384

noncomputable section

namespace Cert.Kernel.Hand

open Cert.Kernel Cert.Kernel.Gen Cert.Area
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The body's result as a function of the blocks it loads -/

/-- What the body stores, as one function of the two blocks it loads: the payloads composed in program order. -/
def areaBlock (x0 : Vec F S16384x16 .f32) (x1 : Vec F S16384 .i32) : FVec F S16384 .f32 :=
  k0_pay1 (k0_pay9 x0 x1 (k0_pay2 x0) (k0_pay3 x0)
      (k0_pay6 x0 x1 (k0_pay2 x0) (k0_pay3 x0) (k0_pay4 x0 x1) (k0_pay5 x0)) (k0_pay7 x0 (k0_pay2 x0) (k0_pay3 x0)) k0_pay8)
    (k0_pay10 x0 (k0_pay2 x0) (k0_pay3 x0)) (k0_pay11 x1) 5#32

/-- Row by row: entry `r` of the result is the fan area of row `r`'s sixteen coordinates, triangles counted by
    row `r`'s count. Each flattened column slice reads the block's entry in that row and column; the remaining
    operations act entry by entry. -/
theorem areaBlock_apply (x0 : Vec F S16384x16 .f32) (x1 : Vec F S16384 .i32) (r : Fin 16384) :
    areaBlock x0 x1 (ix1 r) = areaRow (fun k => x0 (ix2 r k)) (x1 (ix1 r)) := by
  have c0 := column_apply 0 (by decide) x0 slices_S16384x16_o0_0_S16384x1 shapeCasts_S16384x1_S16384 r
  have c1 := column_apply 1 (by decide) x0 slices_S16384x16_o0_1_S16384x1 shapeCasts_S16384x1_S16384 r
  have c2 := column_apply 2 (by decide) x0 slices_S16384x16_o0_2_S16384x1 shapeCasts_S16384x1_S16384 r
  have c3 := column_apply 3 (by decide) x0 slices_S16384x16_o0_3_S16384x1 shapeCasts_S16384x1_S16384 r
  have c4 := column_apply 4 (by decide) x0 slices_S16384x16_o0_4_S16384x1 shapeCasts_S16384x1_S16384 r
  have c5 := column_apply 5 (by decide) x0 slices_S16384x16_o0_5_S16384x1 shapeCasts_S16384x1_S16384 r
  have c6 := column_apply 6 (by decide) x0 slices_S16384x16_o0_6_S16384x1 shapeCasts_S16384x1_S16384 r
  have c7 := column_apply 7 (by decide) x0 slices_S16384x16_o0_7_S16384x1 shapeCasts_S16384x1_S16384 r
  have c8 := column_apply 8 (by decide) x0 slices_S16384x16_o0_8_S16384x1 shapeCasts_S16384x1_S16384 r
  have c9 := column_apply 9 (by decide) x0 slices_S16384x16_o0_9_S16384x1 shapeCasts_S16384x1_S16384 r
  have c10 := column_apply 10 (by decide) x0 slices_S16384x16_o0_10_S16384x1 shapeCasts_S16384x1_S16384 r
  have c11 := column_apply 11 (by decide) x0 slices_S16384x16_o0_11_S16384x1 shapeCasts_S16384x1_S16384 r
  have c12 := column_apply 12 (by decide) x0 slices_S16384x16_o0_12_S16384x1 shapeCasts_S16384x1_S16384 r
  have c13 := column_apply 13 (by decide) x0 slices_S16384x16_o0_13_S16384x1 shapeCasts_S16384x1_S16384 r
  have c14 := column_apply 14 (by decide) x0 slices_S16384x16_o0_14_S16384x1 shapeCasts_S16384x1_S16384 r
  have c15 := column_apply 15 (by decide) x0 slices_S16384x16_o0_15_S16384x1 shapeCasts_S16384x1_S16384 r
  unfold areaBlock k0_pay1 k0_pay9 k0_pay6 k0_pay4 k0_pay5 k0_pay7 k0_pay10 k0_pay11 k0_pay8 k0_pay2 k0_pay3
  simp only [addf, subf, mulf, absf, select, cmpi, subi, broadcast, c0, c1, c2, c3, c4, c5, c6, c7, c8, c9, c10, c11, c12, c13,
    c14, c15]
  rfl

/-! ## The body's triple -/

set_option maxHeartbeats 1000000 in
/-- The body on whole staging memrefs, the inputs' at contents `x0`, `x1` and the output's at anything: it runs to the
    continuation with the inputs' as they were and the output's at `areaBlock x0 x1`. The two loads are of the whole
    blocks, the store is of the whole block, so the buffer ends at the stored value. -/
theorem sound_kernel (c : Dev nD) (E : Set ℕ) (i : grid0.Coords)
    (arg1 : Memref sig .tc .vmem S16384x16 .f32) (harg1 : arg1.IsWhole) (arg2 : Memref sig .tc .vmem S16384 .i32) (harg2 : arg2.IsWhole)
    (arg3 : Memref sig .tc .vmem S16384 .f32) (harg3 : arg3.IsWhole)
    (x0 : Vec F S16384x16 .f32) (x1 : Vec F S16384 .i32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (areaBlock x0 x1)) -∗ K ⟨⟩))
      ⊢ wp frame (wpE (defs₀ (F := F)) Variants.none c none) E (cc0__area_kernel i arg1 harg1 arg2 harg2 arg3 harg3) K := by
  simp only [cc0__area_kernel_eq_skeleton]; unfold cc0__area_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  have hz2 : (![0, 0] : Fin 2 → Nat) = fun _ => 0 := funext fun a => by fin_cases a <;> rfl
  have hz1 : (![0] : Fin 1 → Nat) = fun _ => 0 := funext fun a => by fin_cases a; rfl
  sl_unfold_words
  rw [View.read_writes_eq_canon _ _ _ (fun y => ⟨_, List.mem_singleton_self _, View.mem_set_unit_zero hz1 Facts₀.inb_S16384_S16384_0 y⟩),
    View.canon_unit_zero hz1]
  simp only [View.readAt_eq_ld, View.ld_unit_zero (S := S16384x16) hz2, View.ld_unit_zero (S := S16384) hz1]
  rfl

/-! ## The cut: only the rows inside the array matter -/

/-- Windows 0, 1 and 2 cut their blocks alike on the row axis (one block index, one block height, one array
    length), and window 0 keeps all sixteen columns. -/
theorem xsize_rows_0 (i : grid0.Coords) : win0_0.xsize i 0 = win0_2.xsize i 0 := rfl
theorem xsize_rows_1 (i : grid0.Coords) : win0_1.xsize i 0 = win0_2.xsize i 0 := rfl
theorem xsize_cols_0 (i : grid0.Coords) : win0_0.xsize i 1 = 16 := rfl

/-- A staging block filled with a cut block reads, at an index the cut transfer moves, the cut block: whatever
    the block held before. -/
theorem fill_indep {G : Pipeline.Grid} (w : Window sig G) {α : Type} (i : G.Coords) (d d' : w.block.Idx → α)
    (g : (w.xblock i).Idx → α) {j : w.block.Idx} (h : w.moved i j = true) : w.fill i d g j = w.fill i d' g j := by
  unfold Window.fill; rw [dif_pos h, dif_pos h]

/-- Row `r` below the cut: every column of that row of the points block is moved. -/
theorem moved_0 (i : grid0.Coords) (r : Fin 16384) (hr : r.val < win0_2.xsize i 0) (k : Fin 16) :
    win0_0.moved i (ix2 r k) = true :=
  (win0_0.moved_iff i _).mpr fun a => by
    match a with
    | ⟨0, _⟩ => exact (xsize_rows_0 i).symm ▸ hr
    | ⟨1, _⟩ => exact (xsize_cols_0 i).symm ▸ k.isLt

theorem moved_1 (i : grid0.Coords) (r : Fin 16384) (hr : r.val < win0_2.xsize i 0) : win0_1.moved i (ix1 r) = true :=
  (win0_1.moved_iff i _).mpr fun a => by
    match a with
    | ⟨0, _⟩ => exact (xsize_rows_1 i).symm ▸ hr

/-- The part of the result block inside the array depends only on the parts of the input blocks inside their
    arrays: the rows past the cut reach no kept row. -/
theorem cut_areaBlock (i : grid0.Coords) (d0 d0' : S16384x16.Idx → Elt F .f32) (d1 d1' : S16384.Idx → Elt F .i32)
    (b0 : (win0_0.xblock i).Idx → Elt F .f32) (b1 : (win0_1.xblock i).Idx → Elt F .i32) :
    win0_2.cut i (areaBlock (win0_0.fill i d0 b0) (win0_1.fill i d1 b1))
      = win0_2.cut i (areaBlock (win0_0.fill i d0' b0) (win0_1.fill i d1' b1)) := by
  funext j
  have hlt : (j 0).val < 16384 := Nat.lt_of_lt_of_le (j 0).isLt (win0_2.xsize_le i 0)
  have hr : (⟨(j 0).val, hlt⟩ : Fin 16384).val < win0_2.xsize i 0 := (j 0).isLt
  have hx : (win0_2.xinj i j : S16384.Idx) = ix1 (⟨(j 0).val, hlt⟩ : Fin 16384) := by
    funext a; match a with | ⟨0, _⟩ => rfl
  have e1 := areaBlock_apply (win0_0.fill i d0 b0) (win0_1.fill i d1 b1) ⟨(j 0).val, hlt⟩
  have e2 := areaBlock_apply (win0_0.fill i d0' b0) (win0_1.fill i d1' b1) ⟨(j 0).val, hlt⟩
  show areaBlock (win0_0.fill i d0 b0) (win0_1.fill i d1 b1) (win0_2.xinj i j)
    = areaBlock (win0_0.fill i d0' b0) (win0_1.fill i d1' b1) (win0_2.xinj i j)
  refine ((congrArg (areaBlock (win0_0.fill i d0 b0) (win0_1.fill i d1 b1)) hx).trans e1).trans
    (Eq.trans ?_ ((congrArg (areaBlock (win0_0.fill i d0' b0) (win0_1.fill i d1' b1)) hx).trans e2).symm)
  exact areaRow_congr (fun k => fill_indep win0_0 i d0 d0' b0 (moved_0 i _ hr k)) (fill_indep win0_1 i d1 d1' b1 (moved_1 i _ hr))

/-! ## The proof data -/

variable (m : (ℓ : Loc nD τ sig) → Buf (Elt F) ℓ) (ρ : Dev nD → PrngReg)

/-- The points block at point `t`: the array's rows inside the array, zero on the rows past its end. -/
def ptsBlk (c : Dev nD) (t : Fin cfg0.N) : Vec F S16384x16 .f32 :=
  win0_0.fill (grid0.coords t) (fun _ => Scalar.ofBits .f32 0#32) (iblk m c 0 t)
/-- The counts block at point `t`, likewise. -/
def numBlk (c : Dev nD) (t : Fin cfg0.N) : Vec F S16384 .i32 :=
  win0_1.fill (grid0.coords t) (fun _ => (0#32 : BitVec 32)) (iblk m c 1 t)

/-- The proof data of the one pipeline on core `c`: the arrays as the region finds them; after the body at point `t`
    the inputs' buffers at their blocks and the output's at `areaBlock` of them (each stated up to the rows past the
    cut); the class invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => ptsBlk m c t
    | ⟨1, _⟩ => numBlk m c t
    | ⟨2, _⟩ => areaBlock (ptsBlk m c t) (numBlk m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = ptsBlk m c t := by dsimp only [dats]
theorem after_1 (c : Dev nD) (t : Fin cfg0.N) : (dats m 0 c).after 1 t = numBlk m c t := by dsimp only [dats]
theorem after_2 (c : Dev nD) (t : Fin cfg0.N) :
    (dats m 0 c).after 2 t = areaBlock (ptsBlk m c t) (numBlk m c t) := by dsimp only [dats]

/-- Each input is fetched at every point: its buffer holds the block inside the array, anything past the cut. -/
theorem before_0 (c : Dev nD) (t : Fin cfg0.N) (d) :
    (dats m 0 c).before 0 t d = win0_0.fill (grid0.coords t) d (iblk m c 0 t) := by
  unfold Dat.before; rw [if_pos (fetch0_0 t)]; rfl
theorem before_1 (c : Dev nD) (t : Fin cfg0.N) (d) :
    (dats m 0 c).before 1 t d = win0_1.fill (grid0.coords t) d (iblk m c 1 t) := by
  unfold Dat.before; rw [if_pos (fetch0_1 t)]; rfl

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ (∃ d, owns (c : Thread nD τ) (st0_0 t) fullShare (win0_0.fill (grid0.coords t) d (win0_0.cut (grid0.coords t) ((dats m 0 c).after 0 t))))
    ∗ (∃ d, owns (c : Thread nD τ) (st0_1 t) fullShare (win0_1.fill (grid0.coords t) d (win0_1.cut (grid0.coords t) ((dats m 0 c).after 1 t))))
    ∗ (∃ d, owns (c : Thread nD τ) (st0_2 t) fullShare (win0_2.fill (grid0.coords t) d (win0_2.cut (grid0.coords t) ((dats m 0 c).after 2 t)))))

/-- The body at any point: the inputs' buffers hold their blocks filled out with anything, the output's anything;
    afterwards each holds, on the rows inside the array, what the proof data says. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    after_0, after_1, after_2]
  iintro ⟨HΦ, Ho, ⟨%d0, H0⟩, ⟨%d1, H1⟩, ⟨%d2, H2⟩⟩
  rw [before_0 m c t d0, before_1 m c t d1]
  iapply (sound_kernel c Set.univ _ _ _ _ _ _ _ (win0_0.fill (grid0.coords t) d0 (iblk m c 0 t))
    (win0_1.fill (grid0.coords t) d1 (iblk m c 1 t)) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]
  · iexists d0
    rw [show win0_0.cut (grid0.coords t) (ptsBlk m c t) = iblk m c 0 t from win0_0.cut_fill _ _ _]
    iexact H0
  isplitl [H1]
  · iexists d1
    rw [show win0_1.cut (grid0.coords t) (numBlk m c t) = iblk m c 1 t from win0_1.cut_fill _ _ _]
    iexact H1
  · iexists areaBlock (win0_0.fill (grid0.coords t) d0 (iblk m c 0 t)) (win0_1.fill (grid0.coords t) d1 (iblk m c 1 t))
    have hc : win0_2.cut (grid0.coords t)
          (areaBlock (win0_0.fill (grid0.coords t) d0 (iblk m c 0 t)) (win0_1.fill (grid0.coords t) d1 (iblk m c 1 t)))
        = win0_2.cut (grid0.coords t) (areaBlock (ptsBlk m c t) (numBlk m c t)) :=
      cut_areaBlock (grid0.coords t) d0 _ d1 _ (iblk m c 0 t) (iblk m c 1 t)
    rw [win0_2.fill_congr_cut (grid0.coords t) hc]
    iexact H2

/-- The library's body obligation for windows whose last block is cut, at every point. -/
theorem body_obligation (c : Dev nD) : BodyObligationLoose (dats (F := F) m 0 c) (defs₀ (F := F)) Variants.none () Set.univ := fun t => by
  rw [bigSep_W0, bigSep_W0]
  exact sound_body m c t

/-! ## The run and the frame -/

set_option backward.isDefEq.respectTransparency.types false in
/-- For any values, from any memory with zero counters: every weakly fair execution of @main terminates, every array
    of the pipeline ends at what the library computes from the proof data, every other unscoped buffer as found. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

/-- The frame: the run terminates, nothing faults, and the two argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Hand

end
-- ==== Proof.RunIdeal.lean ====
/-
  The pipelined kernel, run: what its body leaves in the output's staging block, and the frame.

  The grid has 245 points; point `t` stages rows `16384·t …` of the points array (a `[16384, 16]` block), of the
  counts and of the result (each a `[16384]` block). The last block overhangs the arrays (245 · 16384 > 4000000): its
  transfers are cut at the arrays' end, and the rows of a staging block past the cut hold words nothing names.
  The body loads the two input blocks whole, computes one value per row from that row's sixteen entries and its
  count (`areaBlock`; row by row it is `Cert.Area.areaRow`, `areaBlock_apply`), and stores the `[16384]` result whole.
  Because the result at a row reads only that row of the inputs, the part of the result block inside the array is
  the same whatever the unnamed rows hold (`cut_areaBlock`): that is all the obligation of a cut window asks.
-/
import proofs.«159758_j23639499997217_1_alg».proof.Proof.Gen.KernelIdeal.Frame
import proofs.«159758_j23639499997217_1_alg».proof.Proof.Gen.KernelIdeal.Skeleton
import proofs.«159758_j23639499997217_1_alg».proof.Proof.AreaRow
import Idealize.ShloMosaic.Lib.Pipeline.Value
import Idealize.ShloMosaic.Lib.Tactic

set_option maxRecDepth 16384

noncomputable section

namespace Cert.KernelIdeal.Hand

open Cert.KernelIdeal Cert.KernelIdeal.Gen Cert.Area
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The body's result as a function of the blocks it loads -/

/-- What the body stores, as one function of the two blocks it loads: the payloads composed in program order. -/
def areaBlock (x0 : Vec F S16384x16 .f32) (x1 : Vec F S16384 .i32) : FVec F S16384 .f32 :=
  k0_pay1 (k0_pay9 x0 x1 (k0_pay2 x0) (k0_pay3 x0)
      (k0_pay6 x0 x1 (k0_pay2 x0) (k0_pay3 x0) (k0_pay4 x0 x1) (k0_pay5 x0)) (k0_pay7 x0 (k0_pay2 x0) (k0_pay3 x0)) k0_pay8)
    (k0_pay10 x0 (k0_pay2 x0) (k0_pay3 x0)) (k0_pay11 x1) 5#32

/-- Row by row: entry `r` of the result is the fan area of row `r`'s sixteen coordinates, triangles counted by
    row `r`'s count. Each flattened column slice reads the block's entry in that row and column; the remaining
    operations act entry by entry. -/
theorem areaBlock_apply (x0 : Vec F S16384x16 .f32) (x1 : Vec F S16384 .i32) (r : Fin 16384) :
    areaBlock x0 x1 (ix1 r) = areaRow (fun k => x0 (ix2 r k)) (x1 (ix1 r)) := by
  have c0 := column_apply 0 (by decide) x0 slices_S16384x16_o0_0_S16384x1 shapeCasts_S16384x1_S16384 r
  have c1 := column_apply 1 (by decide) x0 slices_S16384x16_o0_1_S16384x1 shapeCasts_S16384x1_S16384 r
  have c2 := column_apply 2 (by decide) x0 slices_S16384x16_o0_2_S16384x1 shapeCasts_S16384x1_S16384 r
  have c3 := column_apply 3 (by decide) x0 slices_S16384x16_o0_3_S16384x1 shapeCasts_S16384x1_S16384 r
  have c4 := column_apply 4 (by decide) x0 slices_S16384x16_o0_4_S16384x1 shapeCasts_S16384x1_S16384 r
  have c5 := column_apply 5 (by decide) x0 slices_S16384x16_o0_5_S16384x1 shapeCasts_S16384x1_S16384 r
  have c6 := column_apply 6 (by decide) x0 slices_S16384x16_o0_6_S16384x1 shapeCasts_S16384x1_S16384 r
  have c7 := column_apply 7 (by decide) x0 slices_S16384x16_o0_7_S16384x1 shapeCasts_S16384x1_S16384 r
  have c8 := column_apply 8 (by decide) x0 slices_S16384x16_o0_8_S16384x1 shapeCasts_S16384x1_S16384 r
  have c9 := column_apply 9 (by decide) x0 slices_S16384x16_o0_9_S16384x1 shapeCasts_S16384x1_S16384 r
  have c10 := column_apply 10 (by decide) x0 slices_S16384x16_o0_10_S16384x1 shapeCasts_S16384x1_S16384 r
  have c11 := column_apply 11 (by decide) x0 slices_S16384x16_o0_11_S16384x1 shapeCasts_S16384x1_S16384 r
  have c12 := column_apply 12 (by decide) x0 slices_S16384x16_o0_12_S16384x1 shapeCasts_S16384x1_S16384 r
  have c13 := column_apply 13 (by decide) x0 slices_S16384x16_o0_13_S16384x1 shapeCasts_S16384x1_S16384 r
  have c14 := column_apply 14 (by decide) x0 slices_S16384x16_o0_14_S16384x1 shapeCasts_S16384x1_S16384 r
  have c15 := column_apply 15 (by decide) x0 slices_S16384x16_o0_15_S16384x1 shapeCasts_S16384x1_S16384 r
  unfold areaBlock k0_pay1 k0_pay9 k0_pay6 k0_pay4 k0_pay5 k0_pay7 k0_pay10 k0_pay11 k0_pay8 k0_pay2 k0_pay3
  simp only [addf, subf, mulf, absf, select, cmpi, subi, broadcast, c0, c1, c2, c3, c4, c5, c6, c7, c8, c9, c10, c11, c12, c13,
    c14, c15]
  rfl

/-! ## The body's triple -/

set_option maxHeartbeats 1000000 in
/-- The body on whole staging memrefs, the inputs' at contents `x0`, `x1` and the output's at anything: it runs to the
    continuation with the inputs' as they were and the output's at `areaBlock x0 x1`. The two loads are of the whole
    blocks, the store is of the whole block, so the buffer ends at the stored value. -/
theorem sound_kernel (c : Dev nD) (E : Set ℕ) (i : grid0.Coords)
    (arg1 : Memref sig .tc .vmem S16384x16 .f32) (harg1 : arg1.IsWhole) (arg2 : Memref sig .tc .vmem S16384 .i32) (harg2 : arg2.IsWhole)
    (arg3 : Memref sig .tc .vmem S16384 .f32) (harg3 : arg3.IsWhole)
    (x0 : Vec F S16384x16 .f32) (x1 : Vec F S16384 .i32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (areaBlock x0 x1)) -∗ K ⟨⟩))
      ⊢ wp frame (wpE (defs₀ (F := F)) Variants.none c none) E (cc0__area_kernel i arg1 harg1 arg2 harg2 arg3 harg3) K := by
  simp only [cc0__area_kernel_eq_skeleton]; unfold cc0__area_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  have hz2 : (![0, 0] : Fin 2 → Nat) = fun _ => 0 := funext fun a => by fin_cases a <;> rfl
  have hz1 : (![0] : Fin 1 → Nat) = fun _ => 0 := funext fun a => by fin_cases a; rfl
  sl_unfold_words
  rw [View.read_writes_eq_canon _ _ _ (fun y => ⟨_, List.mem_singleton_self _, View.mem_set_unit_zero hz1 Facts₀.inb_S16384_S16384_0 y⟩),
    View.canon_unit_zero hz1]
  simp only [View.readAt_eq_ld, View.ld_unit_zero (S := S16384x16) hz2, View.ld_unit_zero (S := S16384) hz1]
  rfl

/-! ## The cut: only the rows inside the array matter -/

/-- Windows 0, 1 and 2 cut their blocks alike on the row axis (one block index, one block height, one array
    length), and window 0 keeps all sixteen columns. -/
theorem xsize_rows_0 (i : grid0.Coords) : win0_0.xsize i 0 = win0_2.xsize i 0 := rfl
theorem xsize_rows_1 (i : grid0.Coords) : win0_1.xsize i 0 = win0_2.xsize i 0 := rfl
theorem xsize_cols_0 (i : grid0.Coords) : win0_0.xsize i 1 = 16 := rfl

/-- A staging block filled with a cut block reads, at an index the cut transfer moves, the cut block: whatever
    the block held before. -/
theorem fill_indep {G : Pipeline.Grid} (w : Window sig G) {α : Type} (i : G.Coords) (d d' : w.block.Idx → α)
    (g : (w.xblock i).Idx → α) {j : w.block.Idx} (h : w.moved i j = true) : w.fill i d g j = w.fill i d' g j := by
  unfold Window.fill; rw [dif_pos h, dif_pos h]

/-- Row `r` below the cut: every column of that row of the points block is moved. -/
theorem moved_0 (i : grid0.Coords) (r : Fin 16384) (hr : r.val < win0_2.xsize i 0) (k : Fin 16) :
    win0_0.moved i (ix2 r k) = true :=
  (win0_0.moved_iff i _).mpr fun a => by
    match a with
    | ⟨0, _⟩ => exact (xsize_rows_0 i).symm ▸ hr
    | ⟨1, _⟩ => exact (xsize_cols_0 i).symm ▸ k.isLt

theorem moved_1 (i : grid0.Coords) (r : Fin 16384) (hr : r.val < win0_2.xsize i 0) : win0_1.moved i (ix1 r) = true :=
  (win0_1.moved_iff i _).mpr fun a => by
    match a with
    | ⟨0, _⟩ => exact (xsize_rows_1 i).symm ▸ hr

/-- The part of the result block inside the array depends only on the parts of the input blocks inside their
    arrays: the rows past the cut reach no kept row. -/
theorem cut_areaBlock (i : grid0.Coords) (d0 d0' : S16384x16.Idx → Elt F .f32) (d1 d1' : S16384.Idx → Elt F .i32)
    (b0 : (win0_0.xblock i).Idx → Elt F .f32) (b1 : (win0_1.xblock i).Idx → Elt F .i32) :
    win0_2.cut i (areaBlock (win0_0.fill i d0 b0) (win0_1.fill i d1 b1))
      = win0_2.cut i (areaBlock (win0_0.fill i d0' b0) (win0_1.fill i d1' b1)) := by
  funext j
  have hlt : (j 0).val < 16384 := Nat.lt_of_lt_of_le (j 0).isLt (win0_2.xsize_le i 0)
  have hr : (⟨(j 0).val, hlt⟩ : Fin 16384).val < win0_2.xsize i 0 := (j 0).isLt
  have hx : (win0_2.xinj i j : S16384.Idx) = ix1 (⟨(j 0).val, hlt⟩ : Fin 16384) := by
    funext a; match a with | ⟨0, _⟩ => rfl
  have e1 := areaBlock_apply (win0_0.fill i d0 b0) (win0_1.fill i d1 b1) ⟨(j 0).val, hlt⟩
  have e2 := areaBlock_apply (win0_0.fill i d0' b0) (win0_1.fill i d1' b1) ⟨(j 0).val, hlt⟩
  show areaBlock (win0_0.fill i d0 b0) (win0_1.fill i d1 b1) (win0_2.xinj i j)
    = areaBlock (win0_0.fill i d0' b0) (win0_1.fill i d1' b1) (win0_2.xinj i j)
  refine ((congrArg (areaBlock (win0_0.fill i d0 b0) (win0_1.fill i d1 b1)) hx).trans e1).trans
    (Eq.trans ?_ ((congrArg (areaBlock (win0_0.fill i d0' b0) (win0_1.fill i d1' b1)) hx).trans e2).symm)
  exact areaRow_congr (fun k => fill_indep win0_0 i d0 d0' b0 (moved_0 i _ hr k)) (fill_indep win0_1 i d1 d1' b1 (moved_1 i _ hr))

/-! ## The proof data -/

variable (m : (ℓ : Loc nD τ sig) → Buf (Elt F) ℓ) (ρ : Dev nD → PrngReg)

/-- The points block at point `t`: the array's rows inside the array, zero on the rows past its end. -/
def ptsBlk (c : Dev nD) (t : Fin cfg0.N) : Vec F S16384x16 .f32 :=
  win0_0.fill (grid0.coords t) (fun _ => Scalar.ofBits .f32 0#32) (iblk m c 0 t)
/-- The counts block at point `t`, likewise. -/
def numBlk (c : Dev nD) (t : Fin cfg0.N) : Vec F S16384 .i32 :=
  win0_1.fill (grid0.coords t) (fun _ => (0#32 : BitVec 32)) (iblk m c 1 t)

/-- The proof data of the one pipeline on core `c`: the arrays as the region finds them; after the body at point `t`
    the inputs' buffers at their blocks and the output's at `areaBlock` of them (each stated up to the rows past the
    cut); the class invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => ptsBlk m c t
    | ⟨1, _⟩ => numBlk m c t
    | ⟨2, _⟩ => areaBlock (ptsBlk m c t) (numBlk m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = ptsBlk m c t := by dsimp only [dats]
theorem after_1 (c : Dev nD) (t : Fin cfg0.N) : (dats m 0 c).after 1 t = numBlk m c t := by dsimp only [dats]
theorem after_2 (c : Dev nD) (t : Fin cfg0.N) :
    (dats m 0 c).after 2 t = areaBlock (ptsBlk m c t) (numBlk m c t) := by dsimp only [dats]

/-- Each input is fetched at every point: its buffer holds the block inside the array, anything past the cut. -/
theorem before_0 (c : Dev nD) (t : Fin cfg0.N) (d) :
    (dats m 0 c).before 0 t d = win0_0.fill (grid0.coords t) d (iblk m c 0 t) := by
  unfold Dat.before; rw [if_pos (fetch0_0 t)]; rfl
theorem before_1 (c : Dev nD) (t : Fin cfg0.N) (d) :
    (dats m 0 c).before 1 t d = win0_1.fill (grid0.coords t) d (iblk m c 1 t) := by
  unfold Dat.before; rw [if_pos (fetch0_1 t)]; rfl

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ (∃ d, owns (c : Thread nD τ) (st0_0 t) fullShare (win0_0.fill (grid0.coords t) d (win0_0.cut (grid0.coords t) ((dats m 0 c).after 0 t))))
    ∗ (∃ d, owns (c : Thread nD τ) (st0_1 t) fullShare (win0_1.fill (grid0.coords t) d (win0_1.cut (grid0.coords t) ((dats m 0 c).after 1 t))))
    ∗ (∃ d, owns (c : Thread nD τ) (st0_2 t) fullShare (win0_2.fill (grid0.coords t) d (win0_2.cut (grid0.coords t) ((dats m 0 c).after 2 t)))))

/-- The body at any point: the inputs' buffers hold their blocks filled out with anything, the output's anything;
    afterwards each holds, on the rows inside the array, what the proof data says. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    after_0, after_1, after_2]
  iintro ⟨HΦ, Ho, ⟨%d0, H0⟩, ⟨%d1, H1⟩, ⟨%d2, H2⟩⟩
  rw [before_0 m c t d0, before_1 m c t d1]
  iapply (sound_kernel c Set.univ _ _ _ _ _ _ _ (win0_0.fill (grid0.coords t) d0 (iblk m c 0 t))
    (win0_1.fill (grid0.coords t) d1 (iblk m c 1 t)) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]
  · iexists d0
    rw [show win0_0.cut (grid0.coords t) (ptsBlk m c t) = iblk m c 0 t from win0_0.cut_fill _ _ _]
    iexact H0
  isplitl [H1]
  · iexists d1
    rw [show win0_1.cut (grid0.coords t) (numBlk m c t) = iblk m c 1 t from win0_1.cut_fill _ _ _]
    iexact H1
  · iexists areaBlock (win0_0.fill (grid0.coords t) d0 (iblk m c 0 t)) (win0_1.fill (grid0.coords t) d1 (iblk m c 1 t))
    have hc : win0_2.cut (grid0.coords t)
          (areaBlock (win0_0.fill (grid0.coords t) d0 (iblk m c 0 t)) (win0_1.fill (grid0.coords t) d1 (iblk m c 1 t)))
        = win0_2.cut (grid0.coords t) (areaBlock (ptsBlk m c t) (numBlk m c t)) :=
      cut_areaBlock (grid0.coords t) d0 _ d1 _ (iblk m c 0 t) (iblk m c 1 t)
    rw [win0_2.fill_congr_cut (grid0.coords t) hc]
    iexact H2

/-- The library's body obligation for windows whose last block is cut, at every point. -/
theorem body_obligation (c : Dev nD) : BodyObligationLoose (dats (F := F) m 0 c) (defs₀ (F := F)) Variants.none () Set.univ := fun t => by
  rw [bigSep_W0, bigSep_W0]
  exact sound_body m c t

/-! ## The run and the frame -/

set_option backward.isDefEq.respectTransparency.types false in
/-- For any values, from any memory with zero counters: every weakly fair execution of @main terminates, every array
    of the pipeline ends at what the library computes from the proof data, every other unscoped buffer as found. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

/-- The frame: the run terminates, nothing faults, and the two argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Hand

end
-- ==== Proof.AreaValue.lean ====
/-
  The kernel's result array after the run: the fan area of every row.

  Point `t` writes back rows `16384·t …` of the result, cut at the array's end; what it writes is, row by row, the
  fan area of the same rows of the points and of the counts (the three windows move together, block index `t`).
  The 245 cut blocks cover the 4000000 rows (row `i` lies in block `i / 16384`), so the array ends holding
  `Cert.Area.areaAll` of the two argument arrays.
-/
import proofs.«159758_j23639499997217_1_alg».proof.Proof.RunIdeal

set_option maxRecDepth 16384

noncomputable section

namespace Cert.KernelIdeal.Hand

open Cert.KernelIdeal Cert.KernelIdeal.Gen Cert.Area
open Idealize.ShloMosaic Idealize.ShloMosaic.TcCoe Idealize.ShloMosaic.ValueIdx Idealize.SL.Sem
open Idealize.ShloMosaic.Pipeline (Dat Window)

variable {F : FTy → Type} [FloatOps F]
variable (m : (ℓ : Loc nD τ sig) → Buf (Elt F) ℓ) (ρ : Dev nD → PrngReg)

/-- The printed index maps and cuts, decided over the grid: block index `t` at point `t`, and the block's rows end at
    the array's end or at the next block's start, whichever comes first. -/
theorem idx_facts : ∀ t : Fin cfg0.N, win0_2.index t (0 : Fin 1) = t.val
    ∧ t.val * 16384 + win0_2.xsize (grid0.coords t) (0 : Fin 1) = min ((t.val + 1) * 16384) 4000000 :=
  (by decide +kernel : ∀ t : Fin grid0.N, win0_2.index t (0 : Fin 1) = t.val
    ∧ t.val * 16384 + win0_2.xsize (grid0.coords t) (0 : Fin 1) = min ((t.val + 1) * 16384) 4000000)

/-- The three windows move together. -/
theorem index_0 (t : Fin cfg0.N) : win0_0.index t (0 : Fin 2) = win0_2.index t (0 : Fin 1) := rfl
theorem index_0' (t : Fin cfg0.N) : win0_0.index t (1 : Fin 2) = 0 := rfl
theorem index_1 (t : Fin cfg0.N) : win0_1.index t (0 : Fin 1) = win0_2.index t (0 : Fin 1) := rfl

/-- What point `t` writes back is block `t` of `areaAll` of the argument arrays as the region finds them. -/
theorem flushed_eq (c : Dev nD) (t : Fin cfg0.N) :
    (dats m 0 c).flushed 2 t
      = ((cfg0.win 2).blk t).view.read (Elt F) (areaAll (V m c main_arg0) (V m c main_arg1)) := by
  show (cfg0.win 2).cut (grid0.coords t) ((dats m 0 c).after 2 t) = _
  rw [after_2]
  funext j
  have hlt : (j 0).val < 16384 := Nat.lt_of_lt_of_le (j 0).isLt (win0_2.xsize_le (grid0.coords t) 0)
  have hr : (⟨(j 0).val, hlt⟩ : Fin 16384).val < win0_2.xsize (grid0.coords t) 0 := (j 0).isLt
  have hx : (win0_2.xinj (grid0.coords t) j : S16384.Idx) = ix1 (⟨(j 0).val, hlt⟩ : Fin 16384) := by
    funext a; match a with | ⟨0, _⟩ => rfl
  show areaBlock (ptsBlk m c t) (numBlk m c t) (win0_2.xinj (grid0.coords t) j)
    = areaAll (V m c main_arg0) (V m c main_arg1) (((cfg0.win 2).blk t).view.emb j)
  refine ((congrArg (areaBlock (ptsBlk m c t) (numBlk m c t)) hx).trans
    (areaBlock_apply (ptsBlk m c t) (numBlk m c t) ⟨(j 0).val, hlt⟩)).trans ?_
  refine areaRow_congr (fun k => ?_) ?_
  · -- the points block at a kept row is the array's entry in that row of block `t`
    unfold ptsBlk Window.fill
    rw [dif_pos (moved_0 (grid0.coords t) _ hr k)]
    show V m c main_arg0 (((cfg0.win 0).blk t).view.emb _) = V m c main_arg0 (ix2 ((((cfg0.win 2).blk t).view.emb j) 0) k)
    refine congrArg (V m c main_arg0) (funext fun a => Fin.ext ?_)
    match a with
    | ⟨0, _⟩ => show win0_0.index t (0 : Fin 2) * 16384 + 1 * (j 0).val = win0_2.index t (0 : Fin 1) * 16384 + 1 * (j 0).val; rw [index_0]
    | ⟨1, _⟩ => show win0_0.index t (1 : Fin 2) * 16 + 1 * k.val = k.val; rw [index_0']; omega
  · unfold numBlk Window.fill
    rw [dif_pos (moved_1 (grid0.coords t) _ hr)]
    show V m c main_arg1 (((cfg0.win 1).blk t).view.emb _) = V m c main_arg1 (((cfg0.win 2).blk t).view.emb j)
    refine congrArg (V m c main_arg1) (funext fun a => Fin.ext ?_)
    match a with
    | ⟨0, _⟩ => show win0_1.index t (0 : Fin 1) * 16384 + 1 * (j 0).val = win0_2.index t (0 : Fin 1) * 16384 + 1 * (j 0).val; rw [index_1]

/-- An index of the result array is in point `t`'s block iff its row is among the block's rows inside the array. -/
theorem mem_blk (t : Fin cfg0.N) (i : S4000000.Idx) :
    i ∈ ((cfg0.win 2).blk t).view.set ↔ ∀ a : Fin 1, win0_2.index t a * S16384.size a ≤ (i a).val
      ∧ (i a).val < win0_2.index t a * S16384.size a + win0_2.xsize (grid0.coords t) a := by
  show i ∈ ((View.whole main_v0).slice (win0_2.rect t)).set ↔ _
  rw [View.set_slice_whole, Rect.mem_set_unit]
  exact Iff.rfl

/-- Every row is in some point's block: row `i` in block `i / 16384`. -/
theorem covered (i : S4000000.Idx) :
    ∃ t : Fin cfg0.N, (cfg0.win 2).flush t = true ∧ i ∈ ((cfg0.win 2).blk t).view.set := by
  have hi : (i 0).val < 4000000 := (i 0).isLt
  have hN : (i 0).val / 16384 < cfg0.N := by show (i 0).val / 16384 < 245; omega
  refine ⟨⟨(i 0).val / 16384, hN⟩, flush0_2 _, ?_⟩
  rw [mem_blk]
  obtain ⟨e0, e1⟩ := idx_facts ⟨(i 0).val / 16384, hN⟩
  intro a
  match a with
  | ⟨0, _⟩ =>
    show win0_2.index ⟨(i 0).val / 16384, hN⟩ (0 : Fin 1) * 16384 ≤ (i 0).val
      ∧ (i 0).val < win0_2.index ⟨(i 0).val / 16384, hN⟩ (0 : Fin 1) * 16384
          + win0_2.xsize (grid0.coords ⟨(i 0).val / 16384, hN⟩) (0 : Fin 1)
    have e0' : win0_2.index ⟨(i 0).val / 16384, hN⟩ (0 : Fin 1) = (i 0).val / 16384 := e0
    rw [e0']
    have e1' : (i 0).val / 16384 * 16384 + win0_2.xsize (grid0.coords ⟨(i 0).val / 16384, hN⟩) (0 : Fin 1)
        = min (((i 0).val / 16384 + 1) * 16384) 4000000 := e1
    omega

/-- The result array after the run. -/
theorem final (c : Dev nD) :
    (dats m 0 c).arrAt 2 cfg0.N = areaAll (m ((c : Thread nD τ).loc main_arg0)) (m ((c : Thread nD τ).loc main_arg1)) :=
  (dats m 0 c).arrAt_eq_of_cover 2 _ (fun t _ => flushed_eq m c t) covered

/-- The run, read: the result array holds the fan area of every row, the two arguments what they held. -/
theorem run : θ_run defs (onTc (τ := τ) (main (F := F))) ⟨m, fun _ => 0, ρ⟩ fun r => ∀ c : Dev nD,
      r.2.mem ((c : Thread nD τ).loc main_v0) = areaAll (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).1 2).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Hand

end
-- ==== Proof.RefArea.lean ====
/-
  The reference at the ideal instance, row by row.

  The host program reshapes the points to `[N, 8, 2]`, slices the first vertex, vertices 1…6 and vertices 2…7, forms for
  each row and each `k < 6` the cross product of `P₀ − P_{k+2}` with `P_{k+1} − P_{k+2}`, halves its absolute value,
  keeps it where `k < n − 2`, and sums over `k`. Reading each stage at an index, entry `(i, k)` of the masked areas is
  `Cert.Area.term` of row `i` at the columns `2k+2 … 2k+5`; the host's `abs` is the kernel's at this instance, and the
  compare `k < n − 2` is the same signed word compare as `n − 2 > k`. The sum over `k` added to zero is the same sum
  accumulated from zero in order: addition of extended reals is associative.
-/
import proofs.«159758_j23639499997217_1_alg».proof.Defs
import proofs.«159758_j23639499997217_1_alg».proof.Proof.Gen.ReferenceIdeal.Read
import proofs.«159758_j23639499997217_1_alg».proof.Proof.AreaRow
import Idealize.ShloMosaic.PureOps.Ideal.Laws

noncomputable section

namespace Cert.ReferenceIdeal.RefArea

open Cert.ReferenceIdeal Cert.ReferenceIdeal.Gen Cert.ReferenceIdeal.Read Cert.Area
open Idealize.ShloMosaic Idealize.ShloMosaic.ValueIdx

variable (x0 : (⟨S4000000x16, .f32⟩ : BufTy).Contents (Elt Ideal)) (x1 : (⟨S4000000, .i32⟩ : BufTy).Contents (Elt Ideal))

/-! ## The leaves: each sliced and reshaped stage at `(i, k)` is one entry of row `i` -/

/-- The apex's x, broadcast along `k`: column 0. -/
theorem apex_x (i : S4000000.Idx) (k : Fin 6) :
    val_main_v8 (F := Ideal) x0 (idx_main_v41 i k) = x0 (ix2 (i 0) 0) := by
  rw [val_main_v8_apply, val_main_v5_apply, val_main_v4_apply, val_main_v1_apply, val_main_v0_apply]
  refine congrArg x0 (funext fun a => Fin.ext ?_)
  have h0 : (i 0).val < 4000000 := (i 0).isLt
  have hk : k.val < 6 := k.isLt
  match a with
  | ⟨0, _⟩ => show _ = (i 0).val; dsimp only; omega
  | ⟨1, _⟩ => show _ = 0; dsimp only; omega

/-- The apex's y, broadcast along `k`: column 1. -/
theorem apex_y (i : S4000000.Idx) (k : Fin 6) :
    val_main_v20 (F := Ideal) x0 (idx_main_v41 i k) = x0 (ix2 (i 0) 1) := by
  rw [val_main_v20_apply, val_main_v17_apply, val_main_v16_apply, val_main_v1_apply, val_main_v0_apply]
  refine congrArg x0 (funext fun a => Fin.ext ?_)
  have h0 : (i 0).val < 4000000 := (i 0).isLt
  have hk : k.val < 6 := k.isLt
  match a with
  | ⟨0, _⟩ => show _ = (i 0).val; dsimp only; omega
  | ⟨1, _⟩ => show _ = 1; dsimp only; omega

/-- The x of vertex `k + 2`: column `2k + 4`. -/
theorem third_x (i : S4000000.Idx) (k : Fin 6) :
    val_main_v7 (F := Ideal) x0 (idx_main_v41 i k) = x0 (ix2 (i 0) ⟨2 * k.val + 4, by have := k.isLt; omega⟩) := by
  rw [val_main_v7_apply, val_main_v6_apply, val_main_v3_apply, val_main_v0_apply]
  refine congrArg x0 (funext fun a => Fin.ext ?_)
  have h0 : (i 0).val < 4000000 := (i 0).isLt
  have hk : k.val < 6 := k.isLt
  match a with
  | ⟨0, _⟩ => show _ = (i 0).val; dsimp only; omega
  | ⟨1, _⟩ => show _ = 2 * k.val + 4; dsimp only; omega

/-- The same entry, through the second copy of that slice. -/
theorem third_x' (i : S4000000.Idx) (k : Fin 6) :
    val_main_v25 (F := Ideal) x0 (idx_main_v41 i k) = x0 (ix2 (i 0) ⟨2 * k.val + 4, by have := k.isLt; omega⟩) := by
  rw [val_main_v25_apply, val_main_v24_apply, val_main_v3_apply, val_main_v0_apply]
  refine congrArg x0 (funext fun a => Fin.ext ?_)
  have h0 : (i 0).val < 4000000 := (i 0).isLt
  have hk : k.val < 6 := k.isLt
  match a with
  | ⟨0, _⟩ => show _ = (i 0).val; dsimp only; omega
  | ⟨1, _⟩ => show _ = 2 * k.val + 4; dsimp only; omega

/-- The y of vertex `k + 1`: column `2k + 3`. -/
theorem second_y (i : S4000000.Idx) (k : Fin 6) :
    val_main_v11 (F := Ideal) x0 (idx_main_v41 i k) = x0 (ix2 (i 0) ⟨2 * k.val + 3, by have := k.isLt; omega⟩) := by
  rw [val_main_v11_apply, val_main_v10_apply, val_main_v2_apply, val_main_v0_apply]
  refine congrArg x0 (funext fun a => Fin.ext ?_)
  have h0 : (i 0).val < 4000000 := (i 0).isLt
  have hk : k.val < 6 := k.isLt
  match a with
  | ⟨0, _⟩ => show _ = (i 0).val; dsimp only; omega
  | ⟨1, _⟩ => show _ = 2 * k.val + 3; dsimp only; omega

/-- The y of vertex `k + 2`: column `2k + 5`. -/
theorem third_y (i : S4000000.Idx) (k : Fin 6) :
    val_main_v13 (F := Ideal) x0 (idx_main_v41 i k) = x0 (ix2 (i 0) ⟨2 * k.val + 5, by have := k.isLt; omega⟩) := by
  rw [val_main_v13_apply, val_main_v12_apply, val_main_v3_apply, val_main_v0_apply]
  refine congrArg x0 (funext fun a => Fin.ext ?_)
  have h0 : (i 0).val < 4000000 := (i 0).isLt
  have hk : k.val < 6 := k.isLt
  match a with
  | ⟨0, _⟩ => show _ = (i 0).val; dsimp only; omega
  | ⟨1, _⟩ => show _ = 2 * k.val + 5; dsimp only; omega

/-- The same entry, through the second copy of that slice. -/
theorem third_y' (i : S4000000.Idx) (k : Fin 6) :
    val_main_v19 (F := Ideal) x0 (idx_main_v41 i k) = x0 (ix2 (i 0) ⟨2 * k.val + 5, by have := k.isLt; omega⟩) := by
  rw [val_main_v19_apply, val_main_v18_apply, val_main_v3_apply, val_main_v0_apply]
  refine congrArg x0 (funext fun a => Fin.ext ?_)
  have h0 : (i 0).val < 4000000 := (i 0).isLt
  have hk : k.val < 6 := k.isLt
  match a with
  | ⟨0, _⟩ => show _ = (i 0).val; dsimp only; omega
  | ⟨1, _⟩ => show _ = 2 * k.val + 5; dsimp only; omega

/-- The x of vertex `k + 1`: column `2k + 2`. -/
theorem second_x (i : S4000000.Idx) (k : Fin 6) :
    val_main_v23 (F := Ideal) x0 (idx_main_v41 i k) = x0 (ix2 (i 0) ⟨2 * k.val + 2, by have := k.isLt; omega⟩) := by
  rw [val_main_v23_apply, val_main_v22_apply, val_main_v2_apply, val_main_v0_apply]
  refine congrArg x0 (funext fun a => Fin.ext ?_)
  have h0 : (i 0).val < 4000000 := (i 0).isLt
  have hk : k.val < 6 := k.isLt
  match a with
  | ⟨0, _⟩ => show _ = (i 0).val; dsimp only; omega
  | ⟨1, _⟩ => show _ = 2 * k.val + 2; dsimp only; omega

/-! ## One masked area -/

/-- Entry `(i, k)` of the masked half cross products is term `k` of row `i`'s fan. -/
theorem masked_area (i : S4000000.Idx) (k : Fin 6) :
    val_main_v40 (F := Ideal) x0 x1 (idx_main_v41 i k)
      = term (F := Ideal) (fun c => x0 (ix2 (i 0) c)) (x1 i) (BitVec.ofNat 32 k.val)
          ⟨2 * k.val + 2, by have := k.isLt; omega⟩ ⟨2 * k.val + 3, by have := k.isLt; omega⟩ ⟨2 * k.val + 4, by have := k.isLt; omega⟩ ⟨2 * k.val + 5, by have := k.isLt; omega⟩ := by
  have hn : x1 (idx_main_v34 (idx_main_v38 (idx_main_v41 i k))) = x1 i :=
    congrArg x1 (funext fun a => by match a with | ⟨0, _⟩ => rfl)
  rw [val_main_v40_apply, val_main_v39_apply, val_main_v37_apply, val_main_v33_apply, val_main_v32_apply,
    val_main_v38_apply, val_main_v36_apply, val_main_v34_apply, val_main_v35_apply, val_main_c_apply, hn,
    val_main_v31_apply, val_main_v29_apply, val_main_v28_apply, val_main_v15_apply, val_main_v9_apply, val_main_v14_apply,
    val_main_v27_apply, val_main_v21_apply, val_main_v26_apply, val_main_v30_apply, val_main_cst_apply,
    val_main_call0_v1_apply, val_main_call0_v0_apply, val_main_cst_0_apply,
    apex_x, third_x, second_y, third_y, apex_y, third_y', second_x, third_x']
  rfl

/-! ## The whole result -/

/-- The reference's result is the fan area of every row: zero plus the sum over `k` of the six terms is the six terms
    added to zero in order. -/
theorem result_eq : val_main_v41 (F := Ideal) x0 x1 = areaAll (F := Ideal) x0 x1 := by
  funext i
  rw [val_main_v41_apply, Fin.sum_univ_six, masked_area, masked_area, masked_area, masked_area, masked_area, masked_area,
    val_main_cst_1_apply]
  show FloatOps.ofBits .f32 0x00000000#32
      + (term (F := Ideal) (fun c => x0 (ix2 (i 0) c)) (x1 i) 0#32 2 3 4 5 + term (F := Ideal) (fun c => x0 (ix2 (i 0) c)) (x1 i) 1#32 4 5 6 7
        + term (F := Ideal) (fun c => x0 (ix2 (i 0) c)) (x1 i) 2#32 6 7 8 9 + term (F := Ideal) (fun c => x0 (ix2 (i 0) c)) (x1 i) 3#32 8 9 10 11
        + term (F := Ideal) (fun c => x0 (ix2 (i 0) c)) (x1 i) 4#32 10 11 12 13 + term (F := Ideal) (fun c => x0 (ix2 (i 0) c)) (x1 i) 5#32 12 13 14 15)
    = FloatOps.ofBits .f32 0x00000000#32 + term (F := Ideal) (fun c => x0 (ix2 (i 0) c)) (x1 i) 0#32 2 3 4 5
        + term (F := Ideal) (fun c => x0 (ix2 (i 0) c)) (x1 i) 1#32 4 5 6 7 + term (F := Ideal) (fun c => x0 (ix2 (i 0) c)) (x1 i) 2#32 6 7 8 9
        + term (F := Ideal) (fun c => x0 (ix2 (i 0) c)) (x1 i) 3#32 8 9 10 11 + term (F := Ideal) (fun c => x0 (ix2 (i 0) c)) (x1 i) 4#32 10 11 12 13
        + term (F := Ideal) (fun c => x0 (ix2 (i 0) c)) (x1 i) 5#32 12 13 14 15
  simp only [add_assoc]

end Cert.ReferenceIdeal.RefArea

end
-- ==== Proof.lean ====
/-
  The certificate of the polygon-area kernel against its jnp reference.

  Both programs compute, for each of 4000000 rows, the area of the fan triangulation of the row's eight planar points,
  counting triangle `k` when `k < n − 2` for the row's count `n`: the sum over `k = 0 … 5` of
  `|(x₀ − x_{k+2})(y_{k+1} − y_{k+2}) − (y₀ − y_{k+2})(x_{k+1} − x_{k+2})| · ½`, masked (`Cert.Area.areaRow`, `areaAll`).
  The kernel streams the rows through VMEM in 245 blocks of 16384, the last one cut at the arrays' end, and
  accumulates the six terms from zero; the reference forms the `[N, 6]` array of masked areas and sums along `k`.
  At the ideal instance the two results are one function of the arguments: the same differences, products, absolute
  value and halving at the same entries, the same signed compare, and a sum of six extended reals that does not
  depend on how it is bracketed. No law that could fail at an infinity is used, so the precondition is not opened.

  The frames of the two kernel programs are the pipeline's frame run over the body's triple (RunBits, RunIdeal: one
  text at the two instances); the kernel's result array is read off that run (AreaValue); the reference's run and
  its stages are the generated modules', joined to the row function in RefArea. The ideal pass rewrote nothing, so
  `preserves` has no conjunct.
-/
import proofs.«159758_j23639499997217_1_alg».proof.Defs
import proofs.«159758_j23639499997217_1_alg».proof.Proof.Gen.Kernel
import proofs.«159758_j23639499997217_1_alg».proof.Proof.Gen.KernelIdeal
import proofs.«159758_j23639499997217_1_alg».proof.Proof.Gen.ReferenceIdeal
import proofs.«159758_j23639499997217_1_alg».proof.Proof.Gen.Pre_finite_inputs
import proofs.«159758_j23639499997217_1_alg».proof.Proof.Gen.ReferenceIdeal.Run
import proofs.«159758_j23639499997217_1_alg».proof.Proof.Gen.ReferenceIdeal.Read
import proofs.«159758_j23639499997217_1_alg».proof.Proof.RunBits
import proofs.«159758_j23639499997217_1_alg».proof.Proof.RunIdeal
import proofs.«159758_j23639499997217_1_alg».proof.Proof.AreaValue
import proofs.«159758_j23639499997217_1_alg».proof.Proof.RefArea

noncomputable section

namespace Cert.Proof

open Idealize.ShloMosaic Idealize.ShloMosaic.TcCoe Idealize.SL.Sem

/-- The word-level kernel runs to the end, faults nowhere and leaves its two arguments as launched. -/
theorem frame_kernel : Cert.frame_Kernel := fun m ρ _ => Cert.Kernel.Hand.frame (F := Bits) m ρ

/-- So does the idealized kernel. -/
theorem frame_kernelIdeal : Cert.frame_KernelIdeal := fun m ρ _ => Cert.KernelIdeal.Hand.frame (F := Ideal) m ρ

/-- The reference is host operations only: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories that agree on the arguments, the kernel's result array and the reference's both end holding the fan
    area of every row of those arguments. -/
theorem algebraic : Cert.algebraic_KernelIdeal_ReferenceIdeal := by
  intro m ρ m' ρ' _ hagree
  refine ⟨_, Cert.KernelIdeal.Hand.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v41_eq, Cert.ReferenceIdeal.RefArea.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
